-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x16 : Shape := ⟨3, ![2048, 128, 16]⟩
abbrev S32x128x16 : Shape := ⟨3, ![32, 128, 16]⟩
abbrev S_ : Shape := ⟨0, ![]⟩

class Facts : Prop where
  bcast_S_S2048x128x16 : S_.BroadcastsInDim S2048x128x16 (![] : Fin 0 → Fin S2048x128x16.rank)
  reducesTo_S2048x128x16_S_d0_1_2 : S2048x128x16.ReducesTo [0, 1, 2] S_
  h_S_ : 0 < S_.numel
  bcast_S_S32x128x16 : S_.BroadcastsInDim S32x128x16 (![] : Fin 0 → Fin S32x128x16.rank)
  reducesTo_S32x128x16_S_d0_1_2 : S32x128x16.ReducesTo [0, 1, 2] S_

variable [Facts]

def fn {F : FTy → Type} [FloatOps F] (main_arg0 : FVec F S2048x128x16 .f32) (main_arg1 : FVec F S32x128x16 .f32) : IVec S_ 1 :=
  let main_v0 : FVec F S2048x128x16 .f32 := Host.absf main_arg0
  let main_cst : FVec F S_ .f32 := constant S_ .f32 0x7F800000#32
  let main_v1 : FVec F S2048x128x16 .f32 := broadcastInDim S2048x128x16 ![] bcast_S_S2048x128x16 main_cst
  let main_v2 : IVec S2048x128x16 1 := cmpf .olt main_v0 main_v1
  let main_c : IVec S_ 1 := constantI S_ 1 1#1
  let main_v3 : IVec S_ 1 := (fun x v => Host.reduce IntOp.andi x v reducesTo_S2048x128x16_S_d0_1_2 h_S_) main_v2 main_c
  let main_v4 : FVec F S32x128x16 .f32 := Host.absf main_arg1
  let main_cst_0 : FVec F S_ .f32 := constant S_ .f32 0x7F800000#32
  let main_v5 : FVec F S32x128x16 .f32 := broadcastInDim S32x128x16 ![] bcast_S_S32x128x16 main_cst_0
  let main_v6 : IVec S32x128x16 1 := cmpf .olt main_v4 main_v5
  let main_c_1 : IVec S_ 1 := constantI S_ 1 1#1
  let main_v7 : IVec S_ 1 := (fun x v => Host.reduce IntOp.andi x v reducesTo_S32x128x16_S_d0_1_2 h_S_) main_v6 main_c_1
  let main_v8 : IVec S_ 1 := andi main_v3 main_v7
  main_v8
-- ==== Kernel.lean ====
abbrev S2048x128x16 : Shape := ⟨3, ![2048, 128, 16]⟩
abbrev S32x128x16 : Shape := ⟨3, ![32, 128, 16]⟩
abbrev S2048x2048 : Shape := ⟨2, ![2048, 2048]⟩
abbrev S16x32x128 : Shape := ⟨3, ![16, 32, 128]⟩
abbrev S_ : Shape := ⟨0, ![]⟩
abbrev S16x32 : Shape := ⟨2, ![16, 32]⟩
abbrev S2048x32 : Shape := ⟨2, ![2048, 32]⟩
abbrev S512x2048 : Shape := ⟨2, ![512, 2048]⟩
abbrev S512x32 : Shape := ⟨2, ![512, 32]⟩
abbrev S512x128x16 : Shape := ⟨3, ![512, 128, 16]⟩
abbrev S16x512x128 : Shape := ⟨3, ![16, 512, 128]⟩
abbrev S16x512x32 : Shape := ⟨3, ![16, 512, 32]⟩
abbrev S16x512 : Shape := ⟨2, ![16, 512]⟩
abbrev S16x512x1 : Shape := ⟨3, ![16, 512, 1]⟩
abbrev S16x1x32 : Shape := ⟨3, ![16, 1, 32]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S2048x128x16, .f32⟩
  | .hbm, ⟨1, _⟩ => ⟨S32x128x16, .f32⟩
  | .hbm, ⟨2, _⟩ => ⟨S2048x2048, .f32⟩
  | .hbm, ⟨3, _⟩ => ⟨S16x32x128, .f32⟩
  | .hbm, ⟨4, _⟩ => ⟨S16x32x128, .f32⟩
  | .hbm, ⟨5, _⟩ => ⟨S_, .f32⟩
  | .hbm, ⟨6, _⟩ => ⟨S16x32, .f32⟩
  | .hbm, ⟨7, _⟩ => ⟨S2048x32, .f32⟩
  | .local _ .vmem, ⟨0, _⟩ => ⟨S512x2048, .f32⟩
  | .local _ .vmem, ⟨1, _⟩ => ⟨S512x2048, .f32⟩
  | .local _ .vmem, ⟨2, _⟩ => ⟨S16x32x128, .f32⟩
  | .local _ .vmem, ⟨3, _⟩ => ⟨S16x32, .f32⟩
  | .local _ .vmem, ⟨4, _⟩ => ⟨S512x32, .f32⟩
  | .local _ .vmem, ⟨5, _⟩ => ⟨S512x32, .f32⟩
  | _, _ => ⟨S2048x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x128x16_S2048x2048 : S2048x128x16.ShapeCasts S2048x2048
  transposes_S32x128x16_S16x32x128_2_0_1 : S32x128x16.Transposes [2, 0, 1] S16x32x128
  reducesTo_S16x32x128_S16x32_d2 : S16x32x128.ReducesTo [2] S16x32
  h_S_ : 0 < S_.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S512x2048_S512x128x16 : S512x2048.ShapeCasts S512x128x16
  transposes_S512x128x16_p2_0_1_S16x512x128 : S512x128x16.Transposes [2, 0, 1] S16x512x128
  inb_S16x32x128_S16x32x128_0_0_0 : ∀ a, (![0, 0, 0] : Fin 3 → Nat) a + S16x32x128.size a ≤ S16x32x128.size a
  h_S16x32x128 : 0 < S16x32x128.numel
  shapeCasts_S16x32x128_S16x32x128 : S16x32x128.ShapeCasts S16x32x128
  inb_S16x32_S16x32_0_0 : ∀ a, (![0, 0] : Fin 2 → Nat) a + S16x32.size a ≤ S16x32.size a
  h_S16x32 : 0 < S16x32.numel
  shapeCasts_S16x32_S16x32 : S16x32.ShapeCasts S16x32
  reduces_S16x512x128_S16x512 : S16x512x128.Reduces [2] S16x512
  shapeCasts_S16x512_S16x512x1 : S16x512.ShapeCasts S16x512x1
  shapeCasts_S16x32_S16x1x32 : S16x32.ShapeCasts S16x1x32
  broadcasts_S16x512x1_S16x512x32 : S16x512x1.Broadcasts S16x512x32
  broadcasts_S16x1x32_S16x512x32 : S16x1x32.Broadcasts S16x512x32
  reduces_S16x512x32_S512x32 : S16x512x32.Reduces [0] S512x32
  reduces_S512x32_S512 : S512x32.Reduces [1] S512
  shapeCasts_S512_S512x1 : S512.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  dot_S16x512x128_S16x32x128_S16x512x32_2_2_1_1_0_0_wf : DotDims.WF S16x512x128 S16x32x128 S16x512x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32x128.size a ≤ S16x32x128.size a
  hwx0_1 : ∀ i : grid0.Coords, EltTy.bits .f32 = 32 ∨ (Rect.block (s := S16x32x128) S16x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S2048x32.size a
  hwx0_3 : ∀ i : grid0.Coords, EltTy.bits .f32 = 32 ∨ (Rect.block (s := S2048x32) S512x32.size (cc0_transform_3 i) (hinb0_3 i)).WholeWords (EltTy.packing .f32)

variable [Facts₀]

def dot_S16x512x128_S16x32x128_S16x512x32_2_2_1_1_0_0 : DotDims S16x512x128 S16x32x128 S16x512x32 where
  lhsContracting := [2]
  rhsContracting := [2]
  lhsNonContracting := [1]
  rhsNonContracting := [1]
  lhsBatch := [0]
  rhsBatch := [0]
  wf := dot_S16x512x128_S16x32x128_S16x512x32_2_2_1_1_0_0_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x128x16 : Shape := ⟨3, ![2048, 128, 16]⟩
abbrev S32x128x16 : Shape := ⟨3, ![32, 128, 16]⟩
abbrev S2048x1x128x16 : Shape := ⟨4, ![2048, 1, 128, 16]⟩
abbrev S1x32x128x16 : Shape := ⟨4, ![1, 32, 128, 16]⟩
abbrev S2048x32x128x16 : Shape := ⟨4, ![2048, 32, 128, 16]⟩
abbrev S_ : Shape := ⟨0, ![]⟩
abbrev S2048x32x16 : Shape := ⟨3, ![2048, 32, 16]⟩
abbrev S2048x32 : Shape := ⟨2, ![2048, 32]⟩
abbrev S2048 : Shape := ⟨1, ![2048]⟩
abbrev S2048x1 : Shape := ⟨2, ![2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2048x128x16, .f32⟩
  | .hbm, ⟨1, _⟩ => ⟨S32x128x16, .f32⟩
  | .hbm, ⟨2, _⟩ => ⟨S2048x1x128x16, .f32⟩
  | .hbm, ⟨3, _⟩ => ⟨S1x32x128x16, .f32⟩
  | .hbm, ⟨4, _⟩ => ⟨S2048x32x128x16, .f32⟩
  | .hbm, ⟨5, _⟩ => ⟨S2048x32x128x16, .f32⟩
  | .hbm, ⟨6, _⟩ => ⟨S2048x32x128x16, .f32⟩
  | .hbm, ⟨7, _⟩ => ⟨S2048x32x128x16, .f32⟩
  | .hbm, ⟨8, _⟩ => ⟨S_, .f32⟩
  | .hbm, ⟨9, _⟩ => ⟨S2048x32x16, .f32⟩
  | .hbm, ⟨10, _⟩ => ⟨S2048x32x16, .f32⟩
  | .hbm, ⟨11, _⟩ => ⟨S_, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048x32, .f32⟩
  | .hbm, ⟨16, _⟩ => ⟨S2048x32, .f32⟩
  | .hbm, ⟨17, _⟩ => ⟨S_, .f32⟩
  | .hbm, ⟨18, _⟩ => ⟨S2048x32, .f32⟩
  | .hbm, ⟨19, _⟩ => ⟨S2048x32, .f32⟩
  | .hbm, ⟨20, _⟩ => ⟨S_, .f32⟩
  | .hbm, ⟨21, _⟩ => ⟨S2048x32, .f32⟩
  | .hbm, ⟨22, _⟩ => ⟨S2048x32, .f32⟩
  | .hbm, ⟨23, _⟩ => ⟨S_, .f32⟩
  | .hbm, ⟨24, _⟩ => ⟨S2048x32, .f32⟩
  | .hbm, ⟨25, _⟩ => ⟨S2048x32, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x32, .f32⟩
  | .hbm, ⟨30, _⟩ => ⟨S2048x32, .f32⟩
  | _, _ => ⟨S2048x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S2048x128x16_S2048x1x128x16_0_2_3 : S2048x128x16.BroadcastsInDim S2048x1x128x16 (![0, 2, 3] : Fin 3 → Fin S2048x1x128x16.rank)
  bcast_S32x128x16_S1x32x128x16_1_2_3 : S32x128x16.BroadcastsInDim S1x32x128x16 (![1, 2, 3] : Fin 3 → Fin S1x32x128x16.rank)
  bcast_S2048x1x128x16_S2048x32x128x16_0_1_2_3 : S2048x1x128x16.BroadcastsInDim S2048x32x128x16 (![0, 1, 2, 3] : Fin 4 → Fin S2048x32x128x16.rank)
  bcast_S1x32x128x16_S2048x32x128x16_0_1_2_3 : S1x32x128x16.BroadcastsInDim S2048x32x128x16 (![0, 1, 2, 3] : Fin 4 → Fin S2048x32x128x16.rank)
  reducesTo_S2048x32x128x16_S2048x32x16_d2 : S2048x32x128x16.ReducesTo [2] S2048x32x16
  h_S_ : 0 < S_.numel
  reducesTo_S2048x32x16_S2048x32_d2 : S2048x32x16.ReducesTo [2] S2048x32
  bcast_S_S2048x32 : S_.BroadcastsInDim S2048x32 (![] : Fin 0 → Fin S2048x32.rank)
  reducesTo_S2048x32_S2048_d1 : S2048x32.ReducesTo [1] S2048
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)

variable [Facts₀]

class Facts : Prop extends Facts₀ where

variable [Facts]
-- ==== Proof.Reals.lean ====
/-
  The real-number facts the two programs' agreement rests on, stated on the extended reals for values known to be
  real numbers.

  For one feature, with x and c two real sequences over the time axis:
      Σ x² + Σ c² − 2·Σ x·c = Σ (x − c)²      (expanding the square; a law of the reals, false at the infinities),
  the right side is a sum of squares, hence ≥ 0, so clamping the left side from below at 0 changes nothing.
  The square root of a non-negative real is a real; a finite sum of reals is a real; 1 / (1 + d²/1) is a real
  for a real d, because the divisor is at least 1; and a real raised to the power 1 is itself.
-/
import Idealize.ShloMosaic.PureOps.Ideal
import Idealize.ShloMosaic.PureOps.Ideal.Laws

noncomputable section

namespace Cert.SoftAssign

open Idealize.ShloMosaic

/-- A value of the extended reals that is a real number. -/
def IsReal (a : EReal) : Prop := ∃ r : ℝ, a = (r : EReal)

/-- The word of `1.0` denotes the real 1. -/
theorem word_one : Ideal.ofBits .f32 0x3F800000#32 = ((1 : ℝ) : EReal) := by
  simp [Ideal.ofBits, Ideal.ieee, -EReal.coe_mul]; norm_num

/-- The word of `2.0` denotes the real 2. -/
theorem word_two : Ideal.ofBits .f32 0x40000000#32 = ((2 : ℝ) : EReal) := by
  simp [Ideal.ofBits, Ideal.ieee, -EReal.coe_mul]; norm_num

/-- The word of `0.0` denotes the real 0. -/
theorem word_zero : Ideal.ofBits .f32 0x00000000#32 = ((0 : ℝ) : EReal) := by
  rw [Ideal.ofBits_zero_f32]; rfl

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Expanding the square, over the reals: the three sums the kernel forms, clamped at zero, are the sum of squared
    differences. -/
theorem expand_real {n : ℕ} (x c : Fin n → ℝ) :
    max (((∑ t, ((x t : ℝ) : EReal) * ((x t : ℝ) : EReal)) + (((0 : ℝ) : EReal) + ∑ t, ((c t : ℝ) : EReal) * ((c t : ℝ) : EReal)))
        - ((2 : ℝ) : EReal) * (∑ t, ((x t : ℝ) : EReal) * ((c t : ℝ) : EReal))) ((0 : ℝ) : EReal)
      = ((∑ t, (x t - c t) * (x t - c t) : ℝ) : EReal) := by
  simp only [← EReal.coe_mul, coe_sum, ← EReal.coe_add, ← EReal.coe_sub]
  have e : (∑ t, x t * x t + (0 + ∑ t, c t * c t) - 2 * ∑ t, x t * c t) = ∑ t, (x t - c t) * (x t - c t) := by
    rw [zero_add, Finset.mul_sum, ← Finset.sum_add_distrib, ← Finset.sum_sub_distrib]
    exact Finset.sum_congr rfl fun t _ => by ring
  rw [e]
  exact max_eq_left (EReal.coe_nonneg.mpr (Finset.sum_nonneg fun t _ => mul_self_nonneg _))

/-- The sum of squared differences, formed in the extended reals from real entries, is that real sum. -/
theorem sqdiff_real {n : ℕ} (x c : Fin n → ℝ) :
    (∑ t, (((x t : ℝ) : EReal) - ((c t : ℝ) : EReal)) * (((x t : ℝ) : EReal) - ((c t : ℝ) : EReal)))
      = ((∑ t, (x t - c t) * (x t - c t) : ℝ) : EReal) := by
  simp only [← EReal.coe_sub, ← EReal.coe_mul, coe_sum]

/-- For sequences of the extended reals whose entries are real numbers: the kernel's clamped expansion is the
    reference's sum of squared differences, and that common value is a non-negative real. -/
theorem expand_eq {n : ℕ} (X C : Fin n → EReal) (hX : ∀ t, IsReal (X t)) (hC : ∀ t, IsReal (C t))
    (two zero : EReal) (h2 : two = ((2 : ℝ) : EReal)) (h0 : zero = ((0 : ℝ) : EReal)) :
    max (((∑ t, X t * X t) + (zero + ∑ t, C t * C t)) - two * (∑ t, X t * C t)) zero
      = ∑ t, (X t - C t) * (X t - C t) := by
  choose x hx using hX
  choose c hc using hC
  obtain rfl : X = fun t => ((x t : ℝ) : EReal) := funext hx
  obtain rfl : C = fun t => ((c t : ℝ) : EReal) := funext hc
  subst h2 h0
  rw [expand_real, sqdiff_real]

/-- The sum of squared differences of real entries is a non-negative real. -/
theorem sqdiff_nonneg {n : ℕ} (X C : Fin n → EReal) (hX : ∀ t, IsReal (X t)) (hC : ∀ t, IsReal (C t)) :
    ∃ r : ℝ, 0 ≤ r ∧ (∑ t, (X t - C t) * (X t - C t)) = (r : EReal) := by
  choose x hx using hX
  choose c hc using hC
  obtain rfl : X = fun t => ((x t : ℝ) : EReal) := funext hx
  obtain rfl : C = fun t => ((c t : ℝ) : EReal) := funext hc
  exact ⟨_, Finset.sum_nonneg fun t _ => mul_self_nonneg _, sqdiff_real x c⟩

/-- The square root of a non-negative real is a non-negative real. -/
theorem sqrt_isReal {a : EReal} (h : ∃ r : ℝ, 0 ≤ r ∧ a = (r : EReal)) : IsReal (Ideal.sqrt a) := by
  obtain ⟨r, hr, rfl⟩ := h
  exact ⟨Real.sqrt r, by rw [Ideal.sqrt_coe, if_neg (not_lt.2 hr)]⟩

/-- A finite sum of real numbers is a real number. -/
theorem sum_isReal {ι : Type} [Fintype ι] (f : ι → EReal) (h : ∀ i, IsReal (f i)) : IsReal (∑ i, f i) := by
  choose g hg using h
  obtain rfl : f = fun i => ((g i : ℝ) : EReal) := funext hg
  exact ⟨_, coe_sum _ g⟩

/-- For a real distance d, the Student-t weight 1 / (1 + d·d/1) is a real number. -/
theorem weight_isReal {d one : EReal} (hd : IsReal d) (h1 : one = ((1 : ℝ) : EReal)) :
    IsReal (Ideal.div one (one + Ideal.div (d * d) one)) := by
  obtain ⟨r, rfl⟩ := hd
  subst h1
  have hpos : (0 : ℝ) < 1 + r * r * (1 / 1) := by have := mul_self_nonneg r; linarith
  rw [Ideal.div_coe one_ne_zero, ← EReal.coe_mul, ← EReal.coe_mul, ← EReal.coe_add, Ideal.div_coe hpos.ne',
    ← EReal.coe_mul]
  exact ⟨_, rfl⟩

/-- A real number raised to the power 1 is itself. -/
theorem pow_one_of_isReal {q one : EReal} (hq : IsReal q) (h1 : one = ((1 : ℝ) : EReal)) : Ideal.pow q one = q := by
  obtain ⟨r, rfl⟩ := hq
  subst h1
  rw [Ideal.pow_coe_coe]
  exact congrArg _ (Real.rpow_one r)

end Cert.SoftAssign

end
-- ==== Proof.Spec.lean ====
/-
  The soft assignment both programs compute, as ONE function of the two argument arrays.

  For a sample b and a cluster k:
      sqd(b, k, f)  = Σ_t (X[b, t, f] − C[k, t, f])²                (squared distance, per feature)
      distance(b,k) = Σ_f √sqd(b, k, f)
      weight(b, k)  = 1 / (1 + distance² / 1)                        (Student-t kernel with one degree of freedom)
      assign(b, k)  = weight(b, k) / Σ_k' weight(b, k').
  When every entry of X and C is a real number, every quantity above is a real number; the kernel's expansion of the
  square, clamped at zero, is sqd; and the reference's weight raised to the power 1 is the weight.
-/
import proofs.«403188_j17609365913690_3_alg».proof.Proof.Reals
import Idealize.ShloMosaic.Lib.ValueIdx

noncomputable section

namespace Cert.SoftAssign

open Idealize.ShloMosaic Idealize.ShloMosaic.ValueIdx

/-- The samples' shape (sample, time, feature), the clusters' (cluster, time, feature), the result's (sample, cluster). -/
abbrev SIn : Shape := ⟨3, ![2048, 128, 16]⟩
abbrev SCl : Shape := ⟨3, ![32, 128, 16]⟩
abbrev SOut : Shape := ⟨2, ![2048, 32]⟩

/-- Every entry of an array is a real number. -/
def AllReal {s : Shape} (v : s.Idx → EReal) : Prop := ∀ i, IsReal (v i)

/-- The words of `1.0` and `0.0`, as both programs spell them. -/
abbrev wOne : EReal := Ideal.ofBits .f32 0x3F800000#32
abbrev wZero : EReal := Ideal.ofBits .f32 0x00000000#32

section
variable (X : SIn.Idx → EReal) (C : SCl.Idx → EReal)

/-- The squared distance of sample b to cluster k along feature f. -/
def sqd (b : Fin 2048) (k : Fin 32) (f : Fin 16) : EReal :=
  ∑ t : Fin 128, (X (ix3 b t f) - C (ix3 k t f)) * (X (ix3 b t f) - C (ix3 k t f))

/-- The distance: the per-feature Euclidean distances summed. -/
def distance (b : Fin 2048) (k : Fin 32) : EReal := ∑ f : Fin 16, Ideal.sqrt (sqd X C b k f)

/-- The Student-t weight. -/
def weight (b : Fin 2048) (k : Fin 32) : EReal :=
  Ideal.div wOne (wOne + Ideal.div (distance X C b k * distance X C b k) wOne)

/-- The weight normalised over the clusters. -/
def assignAt (b : Fin 2048) (k : Fin 32) : EReal := Ideal.div (weight X C b k) (∑ k' : Fin 32, weight X C b k')

/-- THE RESULT ARRAY. -/
def assign : SOut.Idx → EReal := fun i => assignAt X C ⟨(i 0).val, (i 0).isLt⟩ ⟨(i 1).val, (i 1).isLt⟩

theorem assign_ix2 (b : Fin 2048) (k : Fin 32) : assign X C (ix2 b k) = assignAt X C b k := rfl

variable {X C}

/-- A squared distance of real entries is a non-negative real. -/
theorem sqd_nonneg (hX : AllReal X) (hC : AllReal C) (b : Fin 2048) (k : Fin 32) (f : Fin 16) :
    ∃ r : ℝ, 0 ≤ r ∧ sqd X C b k f = (r : EReal) :=
  sqdiff_nonneg (fun t => X (ix3 b t f)) (fun t => C (ix3 k t f)) (fun _ => hX _) (fun _ => hC _)

theorem distance_isReal (hX : AllReal X) (hC : AllReal C) (b : Fin 2048) (k : Fin 32) : IsReal (distance X C b k) :=
  sum_isReal _ fun f => sqrt_isReal (sqd_nonneg hX hC b k f)

theorem weight_isReal' (hX : AllReal X) (hC : AllReal C) (b : Fin 2048) (k : Fin 32) : IsReal (weight X C b k) :=
  weight_isReal (distance_isReal hX hC b k) word_one

/-- THE KERNEL'S FEATURE TERM: the three sums of the expanded square, clamped at zero, are the squared distance. -/
theorem kernel_feature (hX : AllReal X) (hC : AllReal C) (b : Fin 2048) (k : Fin 32) (f : Fin 16) :
    max (((∑ t : Fin 128, X (ix3 b t f) * X (ix3 b t f)) + (wZero + ∑ t : Fin 128, C (ix3 k t f) * C (ix3 k t f)))
        - Ideal.ofBits .f32 0x40000000#32 * ∑ t : Fin 128, X (ix3 b t f) * C (ix3 k t f)) wZero
      = sqd X C b k f :=
  expand_eq (fun t => X (ix3 b t f)) (fun t => C (ix3 k t f)) (fun _ => hX _) (fun _ => hC _) _ _ word_two word_zero

/-- THE REFERENCE'S WEIGHT: its sums start from the word of zero, and it raises the weight to the power 1. -/
theorem reference_weight (hX : AllReal X) (hC : AllReal C) (b : Fin 2048) (k : Fin 32) :
    Ideal.pow (Ideal.div wOne (wOne + Ideal.div
        ((wZero + ∑ f : Fin 16, Ideal.sqrt (wZero + sqd X C b k f)) * (wZero + ∑ f : Fin 16, Ideal.sqrt (wZero + sqd X C b k f))) wOne)) wOne
      = weight X C b k := by
  have hz : wZero = 0 := Ideal.ofBits_zero_f32
  simp only [hz, zero_add]
  exact pow_one_of_isReal (weight_isReal' hX hC b k) word_one

end

end Cert.SoftAssign

end
-- ==== Proof.Finite.lean ====
/-
  From the precondition to real entries.

  The precondition says of each argument array that every entry's absolute value max(x, −x) is below the word of +∞,
  all entries taken together by a conjunction. On the extended reals max(x, −x) < ⊤ excludes both infinities, so
  every entry is a real number.
-/
import proofs.«403188_j17609365913690_3_alg».proof.Pre_finite_inputs
import proofs.«403188_j17609365913690_3_alg».proof.Proof.Gen.Pre_finite_inputs
import proofs.«403188_j17609365913690_3_alg».proof.Proof.Spec
import Idealize.ShloMosaic.Lib.ReduceAll
import Idealize.ShloMosaic.Lib.Pipeline.Value

noncomputable section

namespace Cert.SoftAssign

open Idealize.ShloMosaic Idealize.ShloMosaic.ValueIdx

/-- The word 0x7F800000 denotes +∞. -/
theorem word_inf : Ideal.ofBits .f32 0x7F800000#32 = (⊤ : EReal) := by
  simp [Ideal.ofBits, Ideal.ieee]

/-- An extended real whose absolute value compares below +∞ is a real number. -/
theorem isReal_of_abs_lt_inf {x : EReal} (h : Ideal.cmp .olt (max x (-x)) (Ideal.ofBits .f32 0x7F800000#32) = 1#1) :
    IsReal x := by
  rw [word_inf] at h
  unfold Ideal.cmp at h
  induction x using EReal.rec with
  | bot => simp at h
  | top => simp at h
  | coe r => exact ⟨r, rfl⟩

instance : Subsingleton Cert.Pre_finite_inputs.S_.Idx := ⟨fun a b => funext fun d => d.elim0⟩

/-- One array's half of the precondition gives its entries real. -/
theorem allReal_of_all {s : Shape} (a : FVec Ideal s .f32) (bc : Cert.Pre_finite_inputs.S_.BroadcastsInDim s (![] : Fin 0 → Fin s.rank))
    (hr : s.ReducesTo (List.finRange s.rank) Cert.Pre_finite_inputs.S_ → True)
    (e : ∀ i : s.Idx, cmpf .olt (Host.absf a) (broadcastInDim s ![] bc (constant (F := Ideal) Cert.Pre_finite_inputs.S_ .f32 0x7F800000#32)) i = 1#1) :
    AllReal a := fun i => by
  have h := e i
  have hb : broadcastInDim s ![] bc (constant (F := Ideal) Cert.Pre_finite_inputs.S_ .f32 0x7F800000#32) i
      = Ideal.ofBits .f32 0x7F800000#32 :=
    (broadcastInDim_apply _ bc _ i ix0 (fun a => a.elim0)).trans rfl
  have h' : Ideal.cmp .olt (max (a i) (-(a i))) (broadcastInDim s ![] bc (constant (F := Ideal) Cert.Pre_finite_inputs.S_ .f32 0x7F800000#32) i) = 1#1 := h
  rw [hb] at h'
  exact isReal_of_abs_lt_inf h'

/-- THE PRECONDITION: both argument arrays hold real numbers only. -/
theorem allReal_of_pre (a0 : FVec Ideal Cert.Pre_finite_inputs.S2048x128x16 .f32) (a1 : FVec Ideal Cert.Pre_finite_inputs.S32x128x16 .f32)
    (h : Cert.Pre_finite_inputs.fn (F := Ideal) a0 a1 = fun _ => 1#1) : AllReal a0 ∧ AllReal a1 := by
  have h0 := congrFun h ix0
  dsimp only [Cert.Pre_finite_inputs.fn] at h0
  obtain ⟨e0, e1⟩ := IntOp.andi_eq_one.1 h0
  exact ⟨allReal_of_all a0 _ (fun _ => trivial) (fun i => Host.reduce_andi_all _ _ _ _ ix0 e0 i),
    allReal_of_all a1 _ (fun _ => trivial) (fun i => Host.reduce_andi_all _ _ _ _ ix0 e1 i)⟩

end Cert.SoftAssign

end
-- ==== Proof.Payload.lean ====
/-
  What the kernel body stores, read at an index.

  The body loads a block x0 of 512 rows (each row the 128 × 16 time-by-feature entries of one sample, feature minor),
  the clusters c re-laid feature-major, c[f, k, t], and their squared norms cc[f, k]. For row p and cluster k it
  forms, per feature f,
      s(f) = max((Σ_t x0[p, 16t+f]² + cc[f, k]) − 2 · Σ_t x0[p, 16t+f] · c[f, k, t], 0),
  then the distance d = Σ_f √s(f), the weight w(p, k) = 1 / (1 + d·d / 1), and stores w(p, k) / Σ_k' w(p, k').
  The module splits the body into four stages — the feature-major view of the rows, the clamped expansion, the weight,
  the row normalisation — reads each at an index, and shows the body is their composition.
-/
import proofs.«403188_j17609365913690_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.SoftAssign.Body

open Idealize.ShloMosaic Idealize.ShloMosaic.ValueIdx Cert.KernelIdeal

/-- Position of time step t, feature f in a row of the lane-dense block. -/
def lane (t : Fin 128) (f : Fin 16) : Fin 2048 := ⟨16 * t.val + f.val, by have := t.isLt; have := f.isLt; omega⟩

/-! ## The feature-major view of the rows -/

/-- The block's rows split into time × feature and re-laid feature-major. -/
def featRows (x0 : FVec Ideal S512x2048 .f32) (h1 : S512x2048.ShapeCasts S512x2048) (h2 : S512x2048.ShapeCasts S512x128x16)
    (h3 : S512x128x16.Transposes [2, 0, 1] S16x512x128) : FVec Ideal S16x512x128 .f32 :=
  transpose S16x512x128 [2, 0, 1] (shapeCast S512x128x16 (shapeCast S512x2048 x0 h1) h2) h3

/-- Entry (f, p, t) of the view is entry 16t + f of row p. -/
theorem featRows_apply (x0 : FVec Ideal S512x2048 .f32) (h1 : S512x2048.ShapeCasts S512x2048) (h2 : S512x2048.ShapeCasts S512x128x16)
    (h3 : S512x128x16.Transposes [2, 0, 1] S16x512x128) (f : Fin 16) (p : Fin 512) (t : Fin 128) :
    featRows x0 h1 h2 h3 (ix3 f p t) = x0 (ix2 p (lane t f)) := by
  unfold featRows
  refine (transpose_apply [2, 0, 1] _ h3 (ix3 f p t) (ix3 p t f) (fun b => ?_)).trans ?_
  · match b with
    | ⟨0, _⟩ => rfl
    | ⟨1, _⟩ => rfl
    | ⟨2, _⟩ => rfl
  refine (shapeCast_apply _ h2 (ix3 p t f) (ix2 p (lane t f)) ?_).trans ?_
  · rw [Shape.rowMajor_val_two, Shape.rowMajor_val_three]
    show p.val * 2048 + (16 * t.val + f.val) = (p.val * 128 + t.val) * 16 + f.val
    omega
  rw [shapeCast_self]

/-! ## The matrix product, the lane sums and the broadcasts, at an index -/

theorem lhs_axis0 (j : S16x512x32.Idx) (k : dot_S16x512x128_S16x32x128_S16x512x32_2_2_1_1_0_0.contr.Idx) :
    (dot_S16x512x128_S16x32x128_S16x512x32_2_2_1_1_0_0.lhsIdx j k 0).val = (j 0).val := rfl
theorem lhs_axis1 (j : S16x512x32.Idx) (k : dot_S16x512x128_S16x32x128_S16x512x32_2_2_1_1_0_0.contr.Idx) :
    (dot_S16x512x128_S16x32x128_S16x512x32_2_2_1_1_0_0.lhsIdx j k 1).val = (j 1).val := rfl
theorem rhs_axis0 (j : S16x512x32.Idx) (k : dot_S16x512x128_S16x32x128_S16x512x32_2_2_1_1_0_0.contr.Idx) :
    (dot_S16x512x128_S16x32x128_S16x512x32_2_2_1_1_0_0.rhsIdx j k 0).val = (j 0).val := rfl
theorem rhs_axis1 (j : S16x512x32.Idx) (k : dot_S16x512x128_S16x32x128_S16x512x32_2_2_1_1_0_0.contr.Idx) :
    (dot_S16x512x128_S16x32x128_S16x512x32_2_2_1_1_0_0.rhsIdx j k 1).val = (j 2).val := rfl

/-- The batched product over the time axis: entry (f, p, k) is Σ_t a[f, p, t] · b[f, k, t]. -/
theorem cross_apply (a : FVec Ideal S16x512x128 .f32) (b : FVec Ideal S16x32x128 .f32) (f : Fin 16) (p : Fin 512) (k : Fin 32) :
    matmul dot_S16x512x128_S16x32x128_S16x512x32_2_2_1_1_0_0 none a b (constant S16x512x32 .f32 0x00000000#32) (ix3 f p k)
      = ∑ t : Fin 128, a (ix3 f p t) * b (ix3 f k t) := by
  refine (Ideal.matmul_constant_zero_apply dot_S16x512x128_S16x32x128_S16x512x32_2_2_1_1_0_0 none a b (ix3 f p k)).trans ?_
  refine (Equiv.sum_comp (contrEquiv1 dot_S16x512x128_S16x32x128_S16x512x32_2_2_1_1_0_0 128 rfl rfl).symm
    (fun q => a (dot_S16x512x128_S16x32x128_S16x512x32_2_2_1_1_0_0.lhsIdx (ix3 f p k) q)
      * b (dot_S16x512x128_S16x32x128_S16x512x32_2_2_1_1_0_0.rhsIdx (ix3 f p k) q))).symm.trans ?_
  refine Finset.sum_congr rfl fun t _ => ?_
  have hk := contrEquiv1_symm_val dot_S16x512x128_S16x32x128_S16x512x32_2_2_1_1_0_0 128 rfl rfl t
  have el : dot_S16x512x128_S16x32x128_S16x512x32_2_2_1_1_0_0.lhsIdx (ix3 f p k)
      ((contrEquiv1 dot_S16x512x128_S16x32x128_S16x512x32_2_2_1_1_0_0 128 rfl rfl).symm t) = ix3 f p t := by
    funext ax; apply Fin.ext
    match ax with
    | ⟨0, _⟩ => exact lhs_axis0 _ _
    | ⟨1, _⟩ => exact lhs_axis1 _ _
    | ⟨2, _⟩ => exact (DotDims.lhsIdx_val_of_single (d := dot_S16x512x128_S16x32x128_S16x512x32_2_2_1_1_0_0) (cl := 2) rfl _ _).trans hk
  have er : dot_S16x512x128_S16x32x128_S16x512x32_2_2_1_1_0_0.rhsIdx (ix3 f p k)
      ((contrEquiv1 dot_S16x512x128_S16x32x128_S16x512x32_2_2_1_1_0_0 128 rfl rfl).symm t) = ix3 f k t := by
    funext ax; apply Fin.ext
    match ax with
    | ⟨0, _⟩ => exact rhs_axis0 _ _
    | ⟨1, _⟩ => exact rhs_axis1 _ _
    | ⟨2, _⟩ => exact (DotDims.rhsIdx_val_of_single (d := dot_S16x512x128_S16x32x128_S16x512x32_2_2_1_1_0_0) (cr := 2) rfl _ _).trans hk
  show a _ * b _ = _
  rw [el, er]

/-- A lane sum over the time axis: entry (f, p) is Σ_t v[f, p, t]. -/
theorem timeSum_apply (v : FVec Ideal S16x512x128 .f32) (hr : S16x512x128.Reduces [2] S16x512) (hφ : FKind.Formats .f32)
    (hacc : (0x00000000#32 : BitVec 32) = FKind.add.neutral .f32 hφ) (f : Fin 16) (p : Fin 512) :
    multiReduction .add [2] S16x512 v 0x00000000#32 hr hφ hacc (ix2 f p) = ∑ t : Fin 128, v (ix3 f p t) := by
  refine (Ideal.multiReduction_add_single v 0x00000000#32 hr hφ hacc (ix2 f p)).trans ?_
  refine Finset.sum_congr rfl fun t _ => congrArg v (funext fun ax => Fin.ext ?_)
  match ax with
  | ⟨0, _⟩ => rfl
  | ⟨1, _⟩ => rfl
  | ⟨2, _⟩ => rfl

/-- The sum over the feature axis: entry (p, k) is Σ_f v[f, p, k]. -/
theorem featSum_apply (v : FVec Ideal S16x512x32 .f32) (hr : S16x512x32.Reduces [0] S512x32) (hφ : FKind.Formats .f32)
    (hacc : (0x00000000#32 : BitVec 32) = FKind.add.neutral .f32 hφ) (p : Fin 512) (k : Fin 32) :
    multiReduction .add [0] S512x32 v 0x00000000#32 hr hφ hacc (ix2 p k) = ∑ f : Fin 16, v (ix3 f p k) := by
  refine (Ideal.multiReduction_add_single v 0x00000000#32 hr hφ hacc (ix2 p k)).trans ?_
  refine Finset.sum_congr rfl fun f _ => congrArg v (funext fun ax => Fin.ext ?_)
  match ax with
  | ⟨0, _⟩ => rfl
  | ⟨1, _⟩ => rfl
  | ⟨2, _⟩ => rfl

/-- The sum over the cluster axis: entry p is Σ_k v[p, k]. -/
theorem rowSum_apply (v : FVec Ideal S512x32 .f32) (hr : S512x32.Reduces [1] S512) (hφ : FKind.Formats .f32)
    (hacc : (0x00000000#32 : BitVec 32) = FKind.add.neutral .f32 hφ) (p : Fin 512) :
    multiReduction .add [1] S512 v 0x00000000#32 hr hφ hacc (ix1 p) = ∑ k : Fin 32, v (ix2 p k) := by
  refine (Ideal.multiReduction_add_single v 0x00000000#32 hr hφ hacc (ix1 p)).trans ?_
  refine Finset.sum_congr rfl fun k _ => congrArg v (funext fun ax => Fin.ext ?_)
  match ax with
  | ⟨0, _⟩ => rfl
  | ⟨1, _⟩ => rfl

/-- A per-(f, p) value spread along the cluster axis. -/
theorem spreadClusters_apply (v : FVec Ideal S16x512 .f32) (h1 : S16x512.ShapeCasts S16x512x1) (h2 : S16x512x1.Broadcasts S16x512x32)
    (f : Fin 16) (p : Fin 512) (k : Fin 32) :
    broadcastTo S16x512x32 (shapeCast S16x512x1 v h1) h2 (ix3 f p k) = v (ix2 f p) := by
  refine (broadcastTo_apply _ h2 (ix3 f p k) (ix3 f p (0 : Fin 1)) (fun ax => ?_)).trans ?_
  · match ax with
    | ⟨0, _⟩ => show f.val = if (16 : Nat) = 1 then 0 else f.val; rw [if_neg (by decide)]
    | ⟨1, _⟩ => show p.val = if (512 : Nat) = 1 then 0 else p.val; rw [if_neg (by decide)]
    | ⟨2, _⟩ => show 0 = if (1 : Nat) = 1 then 0 else k.val; rw [if_pos rfl]
  refine shapeCast_apply _ h1 (ix3 f p (0 : Fin 1)) (ix2 f p) ?_
  rw [Shape.rowMajor_val_two, Shape.rowMajor_val_three]
  show f.val * 512 + p.val = (f.val * 512 + p.val) * 1 + 0
  omega

/-- A per-(f, k) value spread along the row axis. -/
theorem spreadRows_apply (v : FVec Ideal S16x32 .f32) (h1 : S16x32.ShapeCasts S16x1x32) (h2 : S16x1x32.Broadcasts S16x512x32)
    (f : Fin 16) (p : Fin 512) (k : Fin 32) :
    broadcastTo S16x512x32 (shapeCast S16x1x32 v h1) h2 (ix3 f p k) = v (ix2 f k) := by
  refine (broadcastTo_apply _ h2 (ix3 f p k) (ix3 f (0 : Fin 1) k) (fun ax => ?_)).trans ?_
  · match ax with
    | ⟨0, _⟩ => show f.val = if (16 : Nat) = 1 then 0 else f.val; rw [if_neg (by decide)]
    | ⟨1, _⟩ => show 0 = if (1 : Nat) = 1 then 0 else p.val; rw [if_pos rfl]
    | ⟨2, _⟩ => show k.val = if (32 : Nat) = 1 then 0 else k.val; rw [if_neg (by decide)]
  refine shapeCast_apply _ h1 (ix3 f (0 : Fin 1) k) (ix2 f k) ?_
  rw [Shape.rowMajor_val_two, Shape.rowMajor_val_three]
  show f.val * 32 + k.val = (f.val * 1 + 0) * 32 + k.val
  omega

/-- A per-row value spread along the cluster axis. -/
theorem spreadRow_apply (v : FVec Ideal S512 .f32) (h1 : S512.ShapeCasts S512x1) (h2 : S512x1.Broadcasts S512x32)
    (p : Fin 512) (k : Fin 32) :
    broadcastTo S512x32 (shapeCast S512x1 v h1) h2 (ix2 p k) = v (ix1 p) := by
  refine (broadcastTo_apply _ h2 (ix2 p k) (ix2 p (0 : Fin 1)) (fun ax => ?_)).trans ?_
  · match ax with
    | ⟨0, _⟩ => show p.val = if (512 : Nat) = 1 then 0 else p.val; rw [if_neg (by decide)]
    | ⟨1, _⟩ => show 0 = if (1 : Nat) = 1 then 0 else k.val; rw [if_pos rfl]
  refine shapeCast_apply _ h1 (ix2 p (0 : Fin 1)) (ix1 p) ?_
  rw [Shape.rowMajor_val_one, Shape.rowMajor_val_two]
  show p.val = p.val * 1 + 0
  omega

/-! ## The body as four stages -/

/-- The feature-major view of the loaded rows. -/
def rowsView (x0 : FVec Ideal S512x2048 .f32) : FVec Ideal S16x512x128 .f32 :=
  featRows x0 Gen.shapeCasts_S512x2048_S512x2048 Gen.shapeCasts_S512x2048_S512x128x16 Gen.transposes_S512x128x16_p2_0_1_S16x512x128

/-- The clamped expansion of the squared distance, per feature, row and cluster. -/
def clamped (x0 : FVec Ideal S512x2048 .f32) (c : FVec Ideal S16x32x128 .f32) (cc : FVec Ideal S16x32 .f32) : FVec Ideal S16x512x32 .f32 :=
  maximumf
    (subf
      (addf
        (broadcastTo S16x512x32 (shapeCast S16x512x1
          (multiReduction .add [2] S16x512 (mulf (rowsView x0) (rowsView x0)) 0x00000000#32 Gen.reduces_S16x512x128_S16x512 (.inl rfl) rfl)
          Gen.shapeCasts_S16x512_S16x512x1) Gen.broadcasts_S16x512x1_S16x512x32)
        (broadcastTo S16x512x32 (shapeCast S16x1x32 (shapeCast S16x32 cc Gen.shapeCasts_S16x32_S16x32) Gen.shapeCasts_S16x32_S16x1x32)
          Gen.broadcasts_S16x1x32_S16x512x32))
      (mulf (broadcast S16x512x32 (Scalar.ofBits .f32 0x40000000#32))
        (matmul dot_S16x512x128_S16x32x128_S16x512x32_2_2_1_1_0_0 none (rowsView x0)
          (shapeCast S16x32x128 c Gen.shapeCasts_S16x32x128_S16x32x128) (constant S16x512x32 .f32 0x00000000#32))))
    (broadcast S16x512x32 (Scalar.ofBits .f32 0x00000000#32))

/-- The distance: the square roots summed over the features. -/
def distV (s : FVec Ideal S16x512x32 .f32) : FVec Ideal S512x32 .f32 :=
  multiReduction .add [0] S512x32 (sqrt s) 0x00000000#32 Gen.reduces_S16x512x32_S512x32 (.inl rfl) rfl

/-- The Student-t weight 1 / (1 + d·d / 1). -/
def weightV (s : FVec Ideal S16x512x32 .f32) : FVec Ideal S512x32 .f32 :=
  divf (broadcast S512x32 (Scalar.ofBits .f32 0x3F800000#32))
    (addf (broadcast S512x32 (Scalar.ofBits .f32 0x3F800000#32))
      (divf (mulf (distV s) (distV s)) (broadcast S512x32 (Scalar.ofBits .f32 0x3F800000#32))))

/-- Each row divided by its sum over the clusters. -/
def normalise (q : FVec Ideal S512x32 .f32) : FVec Ideal S512x32 .f32 :=
  divf q (broadcastTo S512x32 (shapeCast S512x1
    (multiReduction .add [1] S512 q 0x00000000#32 Gen.reduces_S512x32_S512 (.inl rfl) rfl) Gen.shapeCasts_S512_S512x1)
    Gen.broadcasts_S512x1_S512x32)

/-- The body's stored value is the four stages composed. -/
theorem pay_eq (x0 : Vec Ideal S512x2048 .f32) (c : Vec Ideal S16x32x128 .f32) (cc : Vec Ideal S16x32 .f32) :
    Gen.k0_pay1 (F := Ideal) x0 c cc = normalise (weightV (clamped x0 c cc)) := rfl

/-! ## The stages at an index -/

/-- The word of `1.0`, as the body reads it. -/
abbrev oneW : EReal := Ideal.ofBits .f32 0x3F800000#32

/-- One feature's clamped expansion for row p and cluster k. -/
def feat (x0 : FVec Ideal S512x2048 .f32) (c : FVec Ideal S16x32x128 .f32) (cc : FVec Ideal S16x32 .f32)
    (p : Fin 512) (k : Fin 32) (f : Fin 16) : EReal :=
  max (((∑ t : Fin 128, x0 (ix2 p (lane t f)) * x0 (ix2 p (lane t f))) + cc (ix2 f k))
      - Ideal.ofBits .f32 0x40000000#32 * ∑ t : Fin 128, x0 (ix2 p (lane t f)) * c (ix3 f k t))
    (Ideal.ofBits .f32 0x00000000#32)

/-- The distance of row p to cluster k. -/
def dist (x0 : FVec Ideal S512x2048 .f32) (c : FVec Ideal S16x32x128 .f32) (cc : FVec Ideal S16x32 .f32)
    (p : Fin 512) (k : Fin 32) : EReal :=
  ∑ f : Fin 16, Ideal.sqrt (feat x0 c cc p k f)

/-- The weight of cluster k for row p. -/
def weight (x0 : FVec Ideal S512x2048 .f32) (c : FVec Ideal S16x32x128 .f32) (cc : FVec Ideal S16x32 .f32)
    (p : Fin 512) (k : Fin 32) : EReal :=
  Ideal.div oneW (oneW + Ideal.div (dist x0 c cc p k * dist x0 c cc p k) oneW)

set_option backward.isDefEq.respectTransparency.types false in
theorem clamped_apply (x0 : FVec Ideal S512x2048 .f32) (c : FVec Ideal S16x32x128 .f32) (cc : FVec Ideal S16x32 .f32)
    (f : Fin 16) (p : Fin 512) (k : Fin 32) : clamped x0 c cc (ix3 f p k) = feat x0 c cc p k f := by
  unfold clamped feat
  show max ((broadcastTo S16x512x32 (shapeCast S16x512x1 _ _) _ (ix3 f p k)
      + broadcastTo S16x512x32 (shapeCast S16x1x32 _ _) _ (ix3 f p k))
      - Ideal.ofBits .f32 0x40000000#32 * matmul _ none _ _ _ (ix3 f p k)) (Ideal.ofBits .f32 0x00000000#32) = _
  rw [spreadClusters_apply, spreadRows_apply, cross_apply, timeSum_apply, shapeCast_self, shapeCast_self]
  simp only [mulf_apply, rowsView, featRows_apply]

theorem distV_apply (s : FVec Ideal S16x512x32 .f32) (p : Fin 512) (k : Fin 32) :
    distV s (ix2 p k) = ∑ f : Fin 16, Ideal.sqrt (s (ix3 f p k)) := by
  unfold distV
  exact featSum_apply _ _ _ _ p k

theorem weightV_apply (s : FVec Ideal S16x512x32 .f32) (p : Fin 512) (k : Fin 32) :
    weightV s (ix2 p k)
      = Ideal.div oneW (oneW + Ideal.div ((∑ f : Fin 16, Ideal.sqrt (s (ix3 f p k))) * (∑ f : Fin 16, Ideal.sqrt (s (ix3 f p k)))) oneW) := by
  unfold weightV
  show Ideal.div oneW (oneW + Ideal.div (distV s (ix2 p k) * distV s (ix2 p k)) oneW) = _
  rw [distV_apply]

set_option backward.isDefEq.respectTransparency.types false in
theorem normalise_apply (q : FVec Ideal S512x32 .f32) (p : Fin 512) (k : Fin 32) :
    normalise q (ix2 p k) = Ideal.div (q (ix2 p k)) (∑ k' : Fin 32, q (ix2 p k')) := by
  unfold normalise
  show Ideal.div (q (ix2 p k)) (broadcastTo S512x32 (shapeCast S512x1 _ _) _ (ix2 p k)) = _
  rw [spreadRow_apply, rowSum_apply]

/-- THE BODY AT AN INDEX: the weight of cluster k for row p over the row's sum of weights. -/
theorem pay_apply (x0 : Vec Ideal S512x2048 .f32) (c : Vec Ideal S16x32x128 .f32) (cc : Vec Ideal S16x32 .f32) (p : Fin 512) (k : Fin 32) :
    Gen.k0_pay1 (F := Ideal) x0 c cc (ix2 p k) = Ideal.div (weight x0 c cc p k) (∑ k' : Fin 32, weight x0 c cc p k') := by
  rw [pay_eq, normalise_apply]
  have hw : ∀ k' : Fin 32, weightV (clamped x0 c cc) (ix2 p k') = weight x0 c cc p k' := fun k' => by
    rw [weightV_apply]
    unfold weight dist
    simp only [clamped_apply]
  simp only [hw]

end Cert.SoftAssign.Body

end
-- ==== Proof.Blocks.lean ====
/-
  The kernel's result array.

  The host lines before the call hand the kernel three arrays: the samples with time and feature flattened into
  one axis of 2048 (entry 16t + f of row b is X[b, t, f]); the clusters feature-major, (f, k, t) ↦ C[k, t, f]; and their
  squared norms, (f, k) ↦ 0 + Σ_t C[k, t, f]². Grid point g takes rows 512g … 512g + 511 of the first and the other two
  whole, and writes back rows 512g … 512g + 511 of the result. With real entries, what the body stores at row p and
  cluster k of point g is the soft assignment of sample 512g + p to cluster k; the four points' blocks cover the result.
-/
import proofs.«403188_j17609365913690_3_alg».proof.Proof.Gen.KernelIdeal.Value
import proofs.«403188_j17609365913690_3_alg».proof.Proof.Payload
import proofs.«403188_j17609365913690_3_alg».proof.Proof.Spec
import Idealize.ShloMosaic.Lib.Pipeline.Value
import Idealize.ShloMosaic.Lib.StableHlo.Run
import Idealize.ShloMosaic.Lib.Tactic

noncomputable section

namespace Cert.SoftAssign.Array

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.SoftAssign

variable (m : (ℓ : Loc nD τ sig) → Buf (Elt Ideal) ℓ) (ρ : Dev nD → PrngReg)

/-- The two argument arrays on core c. -/
abbrev Xin (c : Dev nD) : FVec Ideal S2048x128x16 .f32 := m ((c : Thread nD τ).loc main_arg0)
abbrev Cin (c : Dev nD) : FVec Ideal S32x128x16 .f32 := m ((c : Thread nD τ).loc main_arg1)

/-! ## The arrays the kernel is handed -/

/-- The flattened samples, the feature-major clusters and the clusters' squared norms, as the call finds them. -/
def rowsArr (c : Dev nD) : S2048x2048.Idx → EReal := V m c main_v0
def clustersArr (c : Dev nD) : S16x32x128.Idx → EReal := V m c main_v1
def normsArr (c : Dev nD) : S16x32.Idx → EReal := V m c main_v3

theorem rows_eq (c : Dev nD) : rowsArr m c
    = shapeCast S2048x2048 (Xin m c) Gen.shapeCasts_S2048x128x16_S2048x2048 := by
  unfold rowsArr; dsimp only [Gen.V, Gen.hostOps0]; after_results; rfl

theorem clusters_eq (c : Dev nD) : clustersArr m c
    = transpose S16x32x128 [2, 0, 1] (Cin m c) Gen.transposes_S32x128x16_S16x32x128_2_0_1 := by
  unfold clustersArr; dsimp only [Gen.V, Gen.hostOps0]; after_results

theorem norms_eq (c : Dev nD) : normsArr m c
    = Host.reduceAdd (F := Ideal) (mulf (transpose S16x32x128 [2, 0, 1] (Cin m c) Gen.transposes_S32x128x16_S16x32x128_2_0_1)
        (transpose S16x32x128 [2, 0, 1] (Cin m c) Gen.transposes_S32x128x16_S16x32x128_2_0_1))
        (constant (F := Ideal) S_ .f32 0x00000000#32) Gen.reducesTo_S16x32x128_S16x32_d2 Gen.h_S_ := by
  unfold normsArr; dsimp only [Gen.V, Gen.hostOps0]; after_results

/-- Row b of the flattened samples at position 16t + f is X[b, t, f]. -/
theorem rows_apply (c : Dev nD) (b : Fin 2048) (t : Fin 128) (f : Fin 16) :
    rowsArr m c (ix2 b (Body.lane t f)) = Xin m c (ix3 b t f) := by
  rw [rows_eq]
  refine shapeCast_apply _ _ (ix2 b (Body.lane t f)) (ix3 b t f) ?_
  rw [Shape.rowMajor_val_two, Shape.rowMajor_val_three]
  show (b.val * 128 + t.val) * 16 + f.val = b.val * 2048 + (16 * t.val + f.val)
  omega

/-- The feature-major clusters at (f, k, t) are C[k, t, f]. -/
theorem clusters_apply (c : Dev nD) (f : Fin 16) (k : Fin 32) (t : Fin 128) :
    clustersArr m c (ix3 f k t) = Cin m c (ix3 k t f) := by
  rw [clusters_eq]
  refine transpose_apply [2, 0, 1] _ _ (ix3 f k t) (ix3 k t f) (fun b => ?_)
  match b with
  | ⟨0, _⟩ => rfl
  | ⟨1, _⟩ => rfl
  | ⟨2, _⟩ => rfl

/-- The squared norms at (f, k) are the word of zero plus Σ_t C[k, t, f]². -/
theorem norms_apply (c : Dev nD) (f : Fin 16) (k : Fin 32) :
    normsArr m c (ix2 f k) = wZero + ∑ t : Fin 128, Cin m c (ix3 k t f) * Cin m c (ix3 k t f) := by
  rw [norms_eq]
  have key : ∀ y : FVec Ideal S16x32x128 .f32,
      Host.reduceAdd (F := Ideal) y (constant (F := Ideal) S_ .f32 0x00000000#32) Gen.reducesTo_S16x32x128_S16x32_d2 Gen.h_S_ (ix2 f k)
        = wZero + ∑ t : Fin 128, y (ix3 f k t) := by
    intro y
    simp only [Host.reduceAdd, Ideal.hostReduceAdd_def]
    rw [Ideal.hostReduceAdd_single Gen.reducesTo_S16x32x128_S16x32_d2 (by decide)]
    refine congrArg₂ (· + ·) rfl (Finset.sum_congr rfl fun t _ => ?_)
    exact congrArg y (funext fun a => Fin.ext (by match a with | ⟨0, _⟩ => rfl | ⟨1, _⟩ => rfl | ⟨2, _⟩ => rfl))
  rw [key]
  refine congrArg (wZero + ·) (Finset.sum_congr rfl fun t _ => ?_)
  have h := clusters_apply m c f k t
  rw [clusters_eq] at h
  refine (ValueIdx.mulf_apply _ _ _).trans ?_
  rw [h]

/-! ## The blocks of a grid point -/

/-- The index maps over the four points: the samples and the result move one block of rows per point, the clusters and
    their norms stay. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The sample that row p of point t's block is. -/
def row (t : Fin cfg0.N) (p : Fin 512) : Fin 2048 :=
  ⟨512 * t.val + p.val, by have := t.isLt; have : cfg0.N = 4 := N_0; have := p.isLt; omega⟩

/-- The three input blocks of a point, at their literal types. -/
abbrev rowsBlk (c : Dev nD) (t : Fin cfg0.N) : Vec Ideal S512x2048 .f32 := iblk m c 0 t
abbrev clustersBlk (c : Dev nD) (t : Fin cfg0.N) : Vec Ideal S16x32x128 .f32 := iblk m c 1 t
abbrev normsBlk (c : Dev nD) (t : Fin cfg0.N) : Vec Ideal S16x32 .f32 := iblk m c 2 t

theorem rowsBlk_apply (c : Dev nD) (t : Fin cfg0.N) (p : Fin 512) (j : Fin 2048) :
    rowsBlk m c t (ix2 p j) = rowsArr m c (ix2 (row t p) j) := by
  obtain ⟨e0, e1, -⟩ := idx_facts t
  show iblk m c 0 t (ix2 p j) = _
  unfold iblk
  rw [View.read_apply]
  show V m c main_v0 _ = V m c main_v0 _
  congr 1
  funext a
  apply Fin.ext
  match a with
  | ⟨0, _⟩ => show win0_0.index t 0 * 512 + 1 * p.val = 512 * t.val + p.val; rw [e0]; omega
  | ⟨1, _⟩ => show win0_0.index t 1 * 2048 + 1 * j.val = j.val; rw [e1]; omega

theorem clustersBlk_apply (c : Dev nD) (t : Fin cfg0.N) (f : Fin 16) (k : Fin 32) (u : Fin 128) :
    clustersBlk m c t (ix3 f k u) = clustersArr m c (ix3 f k u) := by
  obtain ⟨-, -, e0, e1, e2, -⟩ := idx_facts t
  show iblk m c 1 t (ix3 f k u) = _
  unfold iblk
  rw [View.read_apply]
  show V m c main_v1 _ = V m c main_v1 _
  congr 1
  funext a
  apply Fin.ext
  match a with
  | ⟨0, _⟩ => show win0_1.index t 0 * 16 + 1 * f.val = f.val; rw [e0]; omega
  | ⟨1, _⟩ => show win0_1.index t 1 * 32 + 1 * k.val = k.val; rw [e1]; omega
  | ⟨2, _⟩ => show win0_1.index t 2 * 128 + 1 * u.val = u.val; rw [e2]; omega

theorem normsBlk_apply (c : Dev nD) (t : Fin cfg0.N) (f : Fin 16) (k : Fin 32) :
    normsBlk m c t (ix2 f k) = normsArr m c (ix2 f k) := by
  obtain ⟨-, -, -, -, -, e0, e1, -⟩ := idx_facts t
  show iblk m c 2 t (ix2 f k) = _
  unfold iblk
  rw [View.read_apply]
  show V m c main_v3 _ = V m c main_v3 _
  congr 1
  funext a
  apply Fin.ext
  match a with
  | ⟨0, _⟩ => show win0_2.index t 0 * 16 + 1 * f.val = f.val; rw [e0]; omega
  | ⟨1, _⟩ => show win0_2.index t 1 * 32 + 1 * k.val = k.val; rw [e1]; omega

/-- With real entries, the body's weight on point t's blocks is the weight of sample 512t + p. -/
theorem weight_blk (c : Dev nD) (hX : AllReal (Xin m c)) (hC : AllReal (Cin m c)) (t : Fin cfg0.N) (p : Fin 512) (k : Fin 32) :
    Body.weight (rowsBlk m c t) (clustersBlk m c t) (normsBlk m c t) p k = weight (Xin m c) (Cin m c) (row t p) k := by
  unfold Body.weight Body.dist Body.feat weight distance
  simp only [rowsBlk_apply, rows_apply, clustersBlk_apply, clusters_apply, normsBlk_apply, norms_apply, kernel_feature hX hC]

/-! ## What a point writes back, and the array after the run -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point t writes back rows 512t … 512t + 511 of the soft assignment. -/
theorem flushed_eq (c : Dev nD) (hX : AllReal (Xin m c)) (hC : AllReal (Cin m c)) (t : Fin cfg0.N) :
    (dats m 0 c).flushed 3 t = ((cfg0.win 3).blk t).view.read (Elt Ideal) (assign (Xin m c) (Cin m c)) := by
  show (cfg0.win 3).cut (grid0.coords t) ((dats m 0 c).after 3 t) = _
  rw [after0_3]
  unfold out0_3
  rw [View.canon_unit_zero hz2]
  simp only [View.ld_unit_zero (S := S512x2048) hz2, View.ld_unit_zero (S := S16x32x128) hz3, View.ld_unit_zero (S := S16x32) hz2]
  obtain ⟨-, -, -, -, -, -, -, e0, e1⟩ := idx_facts t
  funext j
  obtain ⟨p, k, rfl⟩ : ∃ (p : Fin 512) (k : Fin 32), j = ix2 p k := ⟨j 0, j 1, eq_ix2 j⟩
  show Gen.k0_pay1 (F := Ideal) (rowsBlk m c t) (clustersBlk m c t) (normsBlk m c t) (ix2 p k)
    = assign (Xin m c) (Cin m c) (((cfg0.win 3).blk t).view.emb (ix2 p k))
  have he : ((cfg0.win 3).blk t).view.emb (ix2 p k) = ix2 (row t p) k := by
    funext a
    apply Fin.ext
    match a with
    | ⟨0, _⟩ => show win0_3.index t 0 * 512 + 1 * p.val = 512 * t.val + p.val; rw [e0]; omega
    | ⟨1, _⟩ => show win0_3.index t 1 * 32 + 1 * k.val = k.val; rw [e1]; omega
  rw [he, assign_ix2, Body.pay_apply]
  unfold assignAt
  simp only [weight_blk m c hX hC]

/-- An index of the result is in point t's block iff each coordinate is in the block's range. -/
theorem mem_blk (t : Fin cfg0.N) (i : S2048x32.Idx) :
    i ∈ ((cfg0.win 3).blk t).view.set ↔ ∀ a : Fin 2, win0_3.index t a * S512x32.size a ≤ (i a).val ∧ (i a).val < win0_3.index t a * S512x32.size a + S512x32.size a := by
  show i ∈ ((View.whole main_v4).slice (win0_3.rect t)).set ↔ _
  rw [View.set_slice_whole, Rect.mem_set_unit]
  exact Iff.rfl

/-- Every block of rows is some point's. -/
theorem idx_onto : ∀ q : Fin 4, ∃ t : Fin cfg0.N, win0_3.index t = ![q.val, 0] :=
  (by decide +kernel : ∀ q : Fin 4, ∃ t : Fin grid0.N, win0_3.index t = ![q.val, 0])

/-- The four points' blocks cover the result: row r is in the block of point r / 512. -/
theorem cover (i : S2048x32.Idx) : ∃ t : Fin cfg0.N, (cfg0.win 3).flush t = true ∧ i ∈ ((cfg0.win 3).blk t).view.set := by
  have hi0 : (i 0).val < 2048 := (i 0).isLt
  have hi1 : (i 1).val < 32 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 32 ≤ (i 1).val ∧ (i 1).val < win0_3.index t (1 : Fin 2) * 32 + 32; omega

/-- THE RESULT ARRAY after the run is the soft assignment of the arguments. -/
theorem final (c : Dev nD) (hX : AllReal (Xin m c)) (hC : AllReal (Cin m c)) :
    (dats m 0 c).arrAt 3 cfg0.N = assign (Xin m c) (Cin m c) :=
  (dats m 0 c).arrAt_eq_of_cover 3 (assign (Xin m c) (Cin m c)) (fun t _ => flushed_eq m c hX hC t) cover

/-- THE RUN, READ: every weakly fair execution ends with the result array at the soft assignment and the arguments
    unchanged, when the arguments' entries are real numbers. -/
theorem run (hX : ∀ c, AllReal (Xin m c)) (hC : ∀ c, AllReal (Cin m c)) :
    θ_run defs (onTc (τ := τ) (main (F := Ideal))) ⟨m, fun _ => 0, ρ⟩ fun r => ∀ c : Dev nD,
      r.2.mem ((c : Thread nD τ).loc main_v4) = assign (Xin m c) (Cin m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hX c) (hC c)), (h c).2⟩)
    (Value.run_blocks m ρ)

end Cert.SoftAssign.Array

end
-- ==== Proof.Reference.lean ====
/-
  The reference's result array is the soft assignment.

  The reference broadcasts samples and clusters against each other, subtracts, squares, sums over time (from the word
  of zero), takes the square root, sums over the features (from zero), forms 1 / (1 + d·d / 1), raises it to the power
  1, sums over the clusters (from zero) and divides. Read one operation at a time at an index, with real entries this is
  weight(b, k) / Σ_k' weight(b, k').
-/
import proofs.«403188_j17609365913690_3_alg».proof.Proof.Gen.ReferenceIdeal.Read
import proofs.«403188_j17609365913690_3_alg».proof.Proof.Spec

noncomputable section

namespace Cert.SoftAssign.Reference

open Idealize.ShloMosaic Idealize.ShloMosaic.ValueIdx
open Cert.ReferenceIdeal Cert.ReferenceIdeal.Read Cert.SoftAssign

variable (X : FVec Ideal S2048x128x16 .f32) (C : FVec Ideal S32x128x16 .f32)

/-- The squared difference at (b, k, t, f). -/
theorem square_apply (b : Fin 2048) (k : Fin 32) (t : Fin 128) (f : Fin 16) :
    val_main_v5 (F := Ideal) X C (ix4 b k t f) = (X (ix3 b t f) - C (ix3 k t f)) * (X (ix3 b t f) - C (ix3 k t f)) := by
  have e0 : idx_main_v0 (idx_main_v2 (ix4 b k t f)) = ix3 b t f := by
    funext a; apply Fin.ext
    match a with
    | ⟨0, _⟩ => rfl
    | ⟨1, _⟩ => rfl
    | ⟨2, _⟩ => rfl
  have e1 : idx_main_v1 (idx_main_v3 (ix4 b k t f)) = ix3 k t f := by
    funext a; apply Fin.ext
    match a with
    | ⟨0, _⟩ => rfl
    | ⟨1, _⟩ => rfl
    | ⟨2, _⟩ => rfl
  rw [val_main_v5_apply, val_main_v4_apply, val_main_v2_apply, val_main_v0_apply, val_main_v3_apply, val_main_v1_apply, e0, e1]
  rfl

/-- The per-feature Euclidean distance at (b, k, f). -/
theorem root_apply (b : Fin 2048) (k : Fin 32) (f : Fin 16) :
    val_main_v7 (F := Ideal) X C (ix3 b k f) = Ideal.sqrt (wZero + sqd X C b k f) := by
  have e : ∀ t : Fin 128, idx_main_v6 (ix3 b k f) t = ix4 b k t f := fun t => by
    funext a; apply Fin.ext
    match a with
    | ⟨0, _⟩ => rfl
    | ⟨1, _⟩ => rfl
    | ⟨2, _⟩ => rfl
    | ⟨3, _⟩ => rfl
  rw [val_main_v7_apply, val_main_v6_apply]
  simp only [e, square_apply]
  rfl

/-- The weight at (b, k), as the reference forms it. -/
theorem power_apply (b : Fin 2048) (k : Fin 32) :
    val_main_v17 (F := Ideal) X C (ix2 b k)
      = Ideal.pow (Ideal.div wOne (wOne + Ideal.div
          ((wZero + ∑ f : Fin 16, Ideal.sqrt (wZero + sqd X C b k f)) * (wZero + ∑ f : Fin 16, Ideal.sqrt (wZero + sqd X C b k f))) wOne)) wOne := by
  have e : ∀ f : Fin 16, idx_main_v8 (ix2 b k) f = ix3 b k f := fun f => by
    funext a; apply Fin.ext
    match a with
    | ⟨0, _⟩ => rfl
    | ⟨1, _⟩ => rfl
    | ⟨2, _⟩ => rfl
  have h8 : val_main_v8 (F := Ideal) X C (ix2 b k) = wZero + ∑ f : Fin 16, Ideal.sqrt (wZero + sqd X C b k f) := by
    rw [val_main_v8_apply]
    simp only [e, root_apply]
    rfl
  rw [val_main_v17_apply, val_main_v15_apply, val_main_v13_apply, val_main_v11_apply, val_main_v9_apply, h8,
    val_main_v10_apply, val_main_v12_apply, val_main_v14_apply, val_main_v16_apply]
  rfl

/-- THE REFERENCE AT AN INDEX, for real entries. -/
theorem result_apply (hX : AllReal X) (hC : AllReal C) (b : Fin 2048) (k : Fin 32) :
    val_main_v21 (F := Ideal) X C (ix2 b k) = assignAt X C b k := by
  have hw : ∀ k' : Fin 32, val_main_v17 (F := Ideal) X C (ix2 b k') = weight X C b k' := fun k' => by
    rw [power_apply, reference_weight hX hC]
  have e18 : ∀ k' : Fin 32, idx_main_v18 (ix1 b) k' = ix2 b k' := fun k' => by
    funext a; apply Fin.ext
    match a with
    | ⟨0, _⟩ => rfl
    | ⟨1, _⟩ => rfl
  have e20 : idx_main_v19 (idx_main_v20 (ix2 b k)) = ix1 b := by
    funext a; apply Fin.ext
    match a with
    | ⟨0, _⟩ => rfl
  have h18 : val_main_v18 (F := Ideal) X C (ix1 b) = ∑ k' : Fin 32, weight X C b k' := by
    rw [val_main_v18_apply]
    simp only [e18, hw]
    show wZero + _ = _
    rw [show wZero = 0 from Ideal.ofBits_zero_f32, zero_add]
  rw [val_main_v21_apply, val_main_v20_apply, val_main_v19_apply, e20, h18, hw]
  rfl

/-- THE REFERENCE'S ARRAY is the soft assignment. -/
theorem result_eq (hX : AllReal X) (hC : AllReal C) : val_main_v21 (F := Ideal) X C = assign X C := by
  funext i
  obtain ⟨b, k, rfl⟩ : ∃ (b : Fin 2048) (k : Fin 32), i = ix2 b k := ⟨i 0, i 1, eq_ix2 i⟩
  rw [result_apply X C hX hC, assign_ix2]

end Cert.SoftAssign.Reference

end
-- ==== Proof.lean ====
/-
  The kernel and its reference compute the same soft assignment of samples to clusters.

  Both take samples X[b, t, f] and cluster centres C[k, t, f] and return, for sample b and cluster k,
      weight(b, k) / Σ_k' weight(b, k'),   weight = 1 / (1 + d² / 1),   d(b, k) = Σ_f √(Σ_t (X[b, t, f] − C[k, t, f])²).
  The reference forms the differences directly. The kernel expands the square per feature,
      Σ_t X² + Σ_t C² − 2 · Σ_t X · C,
  the cross term a product batched over the features and contracted over time, the clusters' squared norms computed
  once before the call, and clamps the result at zero before the square root. Over the real numbers the expansion is
  an identity and a sum of squares is never negative, so the clamp is the identity; the identity fails at the
  infinities, and this is where the precondition (every input entry finite, hence a real number) is used. The reference
  also raises the weight to the power 1, which for a real number is the number itself, and starts each of its sums
  from zero.

  The modules: Reals (the algebra on the reals), Spec (the common result as one function of the two arrays, and the two
  sides' forms of it), Finite (the precondition gives real entries), Payload (what the kernel body stores, at an index),
  Blocks (the arrays the kernel is handed, its blocks, and the result array after the run), Reference (the reference's
  operations read at an index). Here: the three frames, and the two runs ending at the same array.
-/
import proofs.«403188_j17609365913690_3_alg».proof.Defs
import proofs.«403188_j17609365913690_3_alg».proof.Proof.Gen.Kernel
import proofs.«403188_j17609365913690_3_alg».proof.Proof.Gen.Kernel.Skeleton
import proofs.«403188_j17609365913690_3_alg».proof.Proof.Gen.Kernel.Launch
import proofs.«403188_j17609365913690_3_alg».proof.Proof.Gen.Kernel.Points
import proofs.«403188_j17609365913690_3_alg».proof.Proof.Gen.Kernel.Frame
import proofs.«403188_j17609365913690_3_alg».proof.Proof.Gen.KernelIdeal
import proofs.«403188_j17609365913690_3_alg».proof.Proof.Gen.KernelIdeal.Skeleton
import proofs.«403188_j17609365913690_3_alg».proof.Proof.Gen.KernelIdeal.Launch
import proofs.«403188_j17609365913690_3_alg».proof.Proof.Gen.KernelIdeal.Points
import proofs.«403188_j17609365913690_3_alg».proof.Proof.Gen.KernelIdeal.Frame
import proofs.«403188_j17609365913690_3_alg».proof.Proof.Gen.ReferenceIdeal
import proofs.«403188_j17609365913690_3_alg».proof.Proof.Gen.Pre_finite_inputs
import proofs.«403188_j17609365913690_3_alg».proof.Proof.Gen.KernelIdeal.Value
import proofs.«403188_j17609365913690_3_alg».proof.Proof.Gen.ReferenceIdeal.Run
import proofs.«403188_j17609365913690_3_alg».proof.Proof.Gen.ReferenceIdeal.Read
import proofs.«403188_j17609365913690_3_alg».proof.Proof.Finite
import proofs.«403188_j17609365913690_3_alg».proof.Proof.Blocks
import proofs.«403188_j17609365913690_3_alg».proof.Proof.Reference
import Idealize.ShloMosaic.Adequacy
import Idealize.ShloMosaic.Init

noncomputable section

namespace Cert.Proof

open Idealize.ShloMosaic Idealize.ShloMosaic.TcCoe Idealize.SL.Sem Cert.SoftAssign

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on finite arguments, both programs end with the result array at the soft assignment of
    the arguments: the kernel's by its blocks (Blocks), the reference's by its operations read at an index (Reference). -/
theorem algebraic : Cert.algebraic_KernelIdeal_ReferenceIdeal := by
  intro m ρ m' ρ' hpre hagree
  have hreal : ∀ c, AllReal (Array.Xin m c) ∧ AllReal (Array.Cin m c) := fun c => allReal_of_pre _ _ (hpre c)
  refine ⟨fun c => assign (Array.Xin m c) (Array.Cin m c), Array.run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  exact Reference.result_eq _ _ (hreal c).1 (hreal c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
